-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S512x10000 : Shape := ⟨2, ![512, 10000]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S128x128, .f32⟩
  | .local _ .vmem, ⟨4, _⟩ => ⟨S512x128, .f32⟩
  | .local _ .vmem, ⟨5, _⟩ => ⟨S512x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S512x10000_S512x10000_0_0 : ∀ a, (![0, 0] : Fin 2 → Nat) a + S512x10000.size a ≤ S512x10000.size a
  h_S512x10000 : 0 < S512x10000.numel
  inb_S512x128_S512x128_0_0 : ∀ a, (![0, 0] : Fin 2 → Nat) a + S512x128.size a ≤ S512x128.size a
  h_S512x128 : 0 < S512x128.numel
  dot_S10000x128_S128x128_S10000x128_1_0_0_1_n_n_wf : DotDims.WF S10000x128 S128x128 S10000x128 [1] [0] [0] [1] [] []
  dot_S512x10000_S10000x128_S512x128_1_0_0_1_n_n_wf : DotDims.WF S512x10000 S10000x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x128.size a < S10000x128.size a
  hwx0_3 : ∀ i : grid0.Coords, EltTy.bits .f32 = 32 ∨ (Rect.unit (s := S10000x128) (fun a => cc0_transform_3 i a * S512x128.size a) (fun a => (Pipeline.Clip.of (cc0_transform_3 i a) (S512x128.size a) (S10000x128.size a)).extent (S512x128.size a)) fun a => Pipeline.Clip.inb (Pipeline.Clip.ok_of (hstart0_3 i a))).WholeWords (EltTy.packing .f32)
  hwxs0_3 : ∀ i : grid0.Coords, EltTy.bits .f32 = 32 ∨ (Rect.unit (s := S512x128) (fun _ => 0) (fun a => (Pipeline.Clip.of (cc0_transform_3 i a) (S512x128.size a) (S10000x128.size a)).extent (S512x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S512x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
import proofs.«166356_g49091476193430_cont_8to1_c_377_7_alg».proof.Proof.Gen.Kernel.Frame
import proofs.«166356_g49091476193430_cont_8to1_c_377_7_alg».proof.Proof.Gen.Kernel.Skeleton
import Idealize.ShloMosaic.Lib.Pipeline.Value

/-!
  The kernel body as one separation-logic triple per control case.

  The body of the pallas_call runs on whole staging buffers holding X0 (the feature matrix), X1 (a block of
  512 rows of the adjacency matrix), X2 (the weights), anything in the result's buffer, and S in the
  scratch. At the first grid point it stores the product X0 · X2 into the scratch and then the product of X1
  with that scratch into the result's buffer; at every later point it only stores the product of X1 with
  whatever the scratch holds. The three input buffers are left as found. Both statements hold at every float
  instance: the products are the printed payload terms, nothing is evaluated.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-shape rectangle, read back through the view, is the payload. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨(⟨Rect.unit off S.size inb, w⟩ : View.Piece Val S e), List.mem_singleton_self _,
    View.mem_set_unit_zero hz inb y⟩), View.canon_unit_zero hz]

/-- The condition of the body's one branch, as a function of the grid coordinates: "this is grid point 0". -/
abbrev atFirst (i : grid0.Coords) : Prop :=
  (Scalar.cmpi .ne (Scalar.extui (Scalar.cmpi .eq (BitVec.ofNat 32 (i 0).val) 0#32)) 0#32) = 1#1

/-- It holds at point 0 and at no other of the twenty points. -/
theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- At the first grid point: the scratch ends at X0 · X2 and the result's buffer at X1 · (X0 · X2). -/
theorem body_first (c : Dev nD) (i : grid0.Coords)
    (a1 : Memref sig .tc .vmem S10000x128 .f32) (h1 : a1.IsWhole) (a2 : Memref sig .tc .vmem S512x10000 .f32) (h2 : a2.IsWhole)
    (a3 : Memref sig .tc .vmem S128x128 .f32) (h3 : a3.IsWhole) (a4 : Memref sig .tc .vmem S512x128 .f32) (h4 : a4.IsWhole)
    (a5 : Memref sig .tc .vmem S10000x128 .f32) (h5 : a5.IsWhole) (hc : atFirst i)
    (X0 : Vec F S10000x128 .f32) (X1 : Vec F S512x10000 .f32) (X2 : Vec F S128x128 .f32) (X3 : Vec F S512x128 .f32)
    (S : Vec F S10000x128 .f32) (E : Set ℕ) (K : PUnit → sProp 𝕄) :
    iprop(owns (c : Thread nD τ) a1 fullShare X0 ∗ owns (c : Thread nD τ) a2 fullShare X1 ∗ owns (c : Thread nD τ) a3 fullShare X2
          ∗ owns (c : Thread nD τ) a4 fullShare X3 ∗ owns (c : Thread nD τ) a5 fullShare S
          ∗ (iprop(owns (c : Thread nD τ) a1 fullShare X0 ∗ owns (c : Thread nD τ) a2 fullShare X1 ∗ owns (c : Thread nD τ) a3 fullShare X2
              ∗ owns (c : Thread nD τ) a4 fullShare (k0_pay2 X1 (k0_pay1 X0 X2)) ∗ owns (c : Thread nD τ) a5 fullShare (k0_pay1 X0 X2)) -∗ K ⟨⟩))
      ⊢ wp frame (wpE (defs₀ (F := F)) Variants.none c none) E (cc0__gcn_body i a1 h1 a2 h2 a3 h3 a4 h4 a5 h5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2
  obtain rfl := h4.eq_unread hf3; obtain rfl := h5.eq_unread hf4
  sl_exec (disch := exact hc)
  sl_step
  have hz : (![0, 0] : Fin 2 → Nat) = fun _ => 0 := funext fun a => by fin_cases a <;> rfl
  sl_unfold_words
  simp only [View.readAt_eq_ld, h1.read_unread, h2.read_unread, h3.read_unread, View.ld_unit_zero (S := S512x10000) hz,
    View.ld_unit_zero (S := S10000x128) hz, View.ld_unit_zero (S := S128x128) hz,
    View.readCov_unit_zero (S := S10000x128) _ hz]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    · ipureintro
      exact read_writes_whole a4.view (h4.unread X3) hz inb_S512x128_S512x128_0_0 (k0_pay2 X1 (k0_pay1 X0 X2))
    iexact H3
  · iexists _; isplitr
    · ipureintro
      exact read_writes_whole a5.view (h5.unread S) hz inb_S10000x128_S10000x128_0_0 (k0_pay1 X0 X2)
    iexact H4

set_option maxHeartbeats 1000000 in
/-- At a later grid point: the scratch is left as found and the result's buffer ends at X1 · S. -/
theorem body_rest (c : Dev nD) (i : grid0.Coords)
    (a1 : Memref sig .tc .vmem S10000x128 .f32) (h1 : a1.IsWhole) (a2 : Memref sig .tc .vmem S512x10000 .f32) (h2 : a2.IsWhole)
    (a3 : Memref sig .tc .vmem S128x128 .f32) (h3 : a3.IsWhole) (a4 : Memref sig .tc .vmem S512x128 .f32) (h4 : a4.IsWhole)
    (a5 : Memref sig .tc .vmem S10000x128 .f32) (h5 : a5.IsWhole) (hc : ¬atFirst i)
    (X0 : Vec F S10000x128 .f32) (X1 : Vec F S512x10000 .f32) (X2 : Vec F S128x128 .f32) (X3 : Vec F S512x128 .f32)
    (S : Vec F S10000x128 .f32) (E : Set ℕ) (K : PUnit → sProp 𝕄) :
    iprop(owns (c : Thread nD τ) a1 fullShare X0 ∗ owns (c : Thread nD τ) a2 fullShare X1 ∗ owns (c : Thread nD τ) a3 fullShare X2
          ∗ owns (c : Thread nD τ) a4 fullShare X3 ∗ owns (c : Thread nD τ) a5 fullShare S
          ∗ (iprop(owns (c : Thread nD τ) a1 fullShare X0 ∗ owns (c : Thread nD τ) a2 fullShare X1 ∗ owns (c : Thread nD τ) a3 fullShare X2
              ∗ owns (c : Thread nD τ) a4 fullShare (k0_pay2 X1 S) ∗ owns (c : Thread nD τ) a5 fullShare S) -∗ K ⟨⟩))
      ⊢ wp frame (wpE (defs₀ (F := F)) Variants.none c none) E (cc0__gcn_body i a1 h1 a2 h2 a3 h3 a4 h4 a5 h5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2
  obtain rfl := h4.eq_unread hf3; obtain rfl := h5.eq_unread hf4
  sl_exec (disch := exact hc)
  sl_step
  have hz : (![0, 0] : Fin 2 → Nat) = fun _ => 0 := funext fun a => by fin_cases a <;> rfl
  sl_unfold_words
  simp only [View.readAt_eq_ld, h1.read_unread, h2.read_unread, h3.read_unread, h5.read_unread, View.ld_unit_zero (S := S512x10000) hz,
    View.ld_unit_zero (S := S10000x128) hz, View.ld_unit_zero (S := S128x128) hz]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    · ipureintro
      exact read_writes_whole a4.view (h4.unread X3) hz inb_S512x128_S512x128_0_0 (k0_pay2 X1 S)
    iexact H3
  · iexists _; isplitr; · ipureintro; exact hf4
    iexact H4

end Cert.Kernel.Body

end
-- ==== Proof.FrameBits.lean ====
import proofs.«166356_g49091476193430_cont_8to1_c_377_7_alg».proof.Proof.BodyBits
import proofs.«166356_g49091476193430_cont_8to1_c_377_7_alg».proof.Proof.Gen.Kernel.Points

/-!
  The frame of the kernel: it runs to the end without fault and leaves its three argument arrays as found.

  The proof data is relational. Of what the body leaves in a window's staging buffer nothing is said (every
  window's relation holds of any two contents): the product is opaque in its whole operand, and the last block of
  the adjacency matrix overhangs the array, so the rows of its buffer past the array's end hold words nothing
  names. The frame does not read them. The invariant is the same at every point: the scratch at some contents and
  the generator register at some state.
-/

set_option maxRecDepth 16384

noncomputable section

namespace Cert.Kernel.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of core `c`: the arrays as launched, every window's relation the one that constrains nothing,
    the invariant the scratch at some contents and the generator register at some state, full shares, nothing owed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The invariant with the scratch as a whole memref owned at some contents. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 1000000 in
/-- The body at any point: the invariant hands it the scratch at some contents; it runs on its five buffers at
    whatever they hold, by the case of its one branch, and hands all five back, the scratch at some contents again;
    the core owes nothing throughout; of what the windows' buffers then hold nothing is asked. -/
theorem body_obligation (c : Dev nD) : (rdat m c).BodyObligation (defs₀ (F := F)) Variants.none () Set.univ := fun t Y hY => by
  rw [bigSep_W0, bigSep_W0]
  rw [show (rdat m c).owesAt () t.succ = (rdat m c).owesAt () t.castSucc from rfl]
  rw [show (rdat m c).Φ t.succ = Pipeline.ΦA spec0 c from rfl, show (rdat m c).Φ t.castSucc = Pipeline.ΦA spec0 c from rfl, PhiA_eq]
  change _ ⊢ wp frame (wpE (defs₀ (F := F)) Variants.none c none) Set.univ (bodyAt0 t) _
  unfold bodyAt0
  iintro ⟨⟨⟨%d, HS⟩, Hg⟩, Ho, H0, H1, H2, H3⟩
  by_cases hc : Body.atFirst (grid0.coords t)
  · iapply (Body.body_first c (grid0.coords t) _ _ _ _ _ _ _ _ _ _ hc (Y 0) (Y 1) (Y 2) (Y 3) d Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; iexact HS
      iexact Hg
    isplitl [Ho]; · iexact Ho
    isplitl [H0]
    · iexists _; isplitr; swap; · iexact H0
      ipureintro; trivial
    isplitl [H1]
    · iexists _; isplitr; swap; · iexact H1
      ipureintro; trivial
    isplitl [H2]
    · iexists _; isplitr; swap; · iexact H2
      ipureintro; trivial
    · iexists _; isplitr; swap; · iexact H3
      ipureintro; trivial
  · iapply (Body.body_rest c (grid0.coords t) _ _ _ _ _ _ _ _ _ _ hc (Y 0) (Y 1) (Y 2) (Y 3) d Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; iexact HS
      iexact Hg
    isplitl [Ho]; · iexact Ho
    isplitl [H0]
    · iexists _; isplitr; swap; · iexact H0
      ipureintro; trivial
    isplitl [H1]
    · iexists _; isplitr; swap; · iexact H1
      ipureintro; trivial
    isplitl [H2]
    · iexists _; isplitr; swap; · iexact H2
      ipureintro; trivial
    · iexists _; isplitr; swap; · iexact H3
      ipureintro; trivial

set_option backward.isDefEq.respectTransparency.types false in
/-- At the compiled mesh, for any values, from any memory with zero counters: every weakly fair execution of @main on
    the TensorCores terminates, and at every final state every windowed array holds some contents it may hold after
    every write-back (an input: its contents at entry) and every other unscoped buffer what it held at entry. -/
theorem run_main : θ_run defs (onTc (τ := τ) (main (F := F))) (s₀ m ρ) (Pipeline.RDat.FramePost cfg0 (rdat m) (Gen.V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := Gen.V m) (hmain := Gen.hmain m Variants.none)
    (hA := fun _ _ => rfl) (hΦ := fun _ _ => rfl)

/-- THE FRAME: the kernel runs to the end without fault and its three argument arrays end as they began. Each is an
    input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 0 rfl).trans (Gen.V_main_arg0 m c),
     (Pipeline.RDat.FramePost.arr_in h c 1 rfl).trans (Gen.V_main_arg1 m c),
     (Pipeline.RDat.FramePost.arr_in h c 2 rfl).trans (Gen.V_main_arg2 m c)⟩) (run_main m ρ)

/-- info: 'Cert.Kernel.FrameBits.frame' depends on axioms: [propext, Classical.choice, Quot.sound] -/
#guard_msgs in #print axioms frame

end Cert.Kernel.FrameBits

end
-- ==== Proof.DefsIdeal.lean ====
import proofs.«166356_g49091476193430_cont_8to1_c_377_7_alg».proof.Proof.Gen.KernelIdeal.Frame
import proofs.«166356_g49091476193430_cont_8to1_c_377_7_alg».proof.Proof.Gen.KernelIdeal.Skeleton
import proofs.«166356_g49091476193430_cont_8to1_c_377_7_alg».proof.Proof.Gen.KernelIdeal.Points
import Idealize.ShloMosaic.Lib.Pipeline.Value
import Idealize.ShloMosaic.Lib.ValueIdx

/-!
  The proof data of the idealized kernel's one pipeline, at the ideal values.

  Write X for the feature matrix, A for the adjacency matrix and W for the weights as the region finds them.
  The scratch, once the first grid point has run, holds the support matrix X · W for the rest of the run. The
  result array is to end at Gmat = A · (X · W), entry (p, q) the sum over k of A (p, k) * support (k, q).
  After the body at point t the staging buffers hold: X and W themselves; the t-th block of 512 rows of A on
  the rows inside the array; and the t-th block of 512 rows of Gmat on the rows inside the array. Past the
  array's end (the last block overhangs it by 240 rows) nothing is stated: the two cut windows are loose, and
  the filler written here is the zero, which nothing reads.
-/

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The three argument arrays as the region finds them, at their literal types. -/
abbrev Xarr (c : Dev nD) : Vec Ideal S10000x128 .f32 := Gen.V m c main_arg0
abbrev Aarr (c : Dev nD) : Vec Ideal S10000x10000 .f32 := Gen.V m c main_arg1
abbrev Warr (c : Dev nD) : Vec Ideal S128x128 .f32 := Gen.V m c main_arg2

/-- The support matrix X · W: what the scratch holds from the first point on. -/
def support (c : Dev nD) : Vec Ideal S10000x128 .f32 := k0_pay1 (F := Ideal) (Xarr m c) (Warr m c)

/-- The result: A · support, entry by entry. -/
def Gmat (c : Dev nD) : Vec Ideal S10000x128 .f32 := fun i =>
  ∑ k : Fin 10000, Aarr m c (ix2 ⟨(i 0).val, (i 0).isLt⟩ k) * support m c (ix2 k ⟨(i 1).val, (i 1).isLt⟩)

/-- The adjacency window's staging buffer once the fetch at point t has landed in it, if it held d before: the
    block on the rows inside the array, d past the array's end. -/
def fetchedA (c : Dev nD) (t : Fin cfg0.N) (d : S512x10000.Idx → EReal) : Vec Ideal S512x10000 .f32 :=
  (cfg0.win 1).fill (cfg0.grid.coords t) d (Gen.iblk m c 1 t)

/-- The adjacency window's staging buffer after the body at point t: its block, zero past the array's end. -/
def afterA (c : Dev nD) (t : Fin cfg0.N) : Vec Ideal S512x10000 .f32 := fetchedA m c t (fun _ => (0 : EReal))

/-- The result window's staging buffer after the body at point t: block t of Gmat, zero past the array's end. -/
def afterO (c : Dev nD) (t : Fin cfg0.N) : Vec Ideal S512x128 .f32 :=
  (cfg0.win 3).fill (cfg0.grid.coords t) (fun _ => (0 : EReal)) (((cfg0.win 3).blk t).view.read (Elt Ideal) (Gmat m c))

/-- The invariant before point n: before the first point the scratch holds anything; from then on the support
    matrix. The generator register is carried along at some state. -/
def PhiS (c : Dev nD) : ℕ → sProp 𝕄
  | 0 => Pipeline.ΦA spec0 c
  | _ + 1 => iprop(owns (c : Thread nD τ) (Memref.whole cc0_scratch0) fullShare (support m c) ∗ (∃ r, prngReg c r))

/-- The proof data. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => afterA m c t
    | ⟨2, _⟩ => Gen.iblk m c 2 t
    | ⟨3, _⟩ => afterO m c t
  Φ t := PhiS m c t.val
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = Gen.iblk m c 0 t := by dsimp only [dats]
theorem after0_1 (c : Dev nD) (t : Fin cfg0.N) : (dats m 0 c).after 1 t = afterA m c t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = afterO m c t := by dsimp only [dats]

theorem Phi_eq (c : Dev nD) (t : Fin (cfg0.N + 1)) : (dats m 0 c).Φ t = PhiS m c t.val := by dsimp only [dats]

/-- The class invariant with the scratch owned as a memref. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the transfers move of the two cut windows, and where their blocks sit, decided over the grid: the
    adjacency window and the result window have the same row block and the same cut on the rows; neither is
    cut on the columns; both column block indices are zero. -/
theorem win_facts : ∀ t : Fin cfg0.N,
    win0_1.xsize (grid0.coords t) (0 : Fin 2) = win0_3.xsize (grid0.coords t) (0 : Fin 2)
    ∧ win0_1.xsize (grid0.coords t) (1 : Fin 2) = 10000
    ∧ win0_3.xsize (grid0.coords t) (1 : Fin 2) = 128
    ∧ win0_1.index t (0 : Fin 2) = win0_3.index t (0 : Fin 2)
    ∧ win0_1.index t (1 : Fin 2) = 0
    ∧ win0_3.index t (1 : Fin 2) = 0
    ∧ win0_3.index t (0 : Fin 2) = t.val
    ∧ win0_3.xsize (grid0.coords t) (0 : Fin 2) = (if t.val = 19 then 272 else 512) :=
  (by decide +kernel : ∀ t : Fin grid0.N, _)

end Cert.KernelIdeal.Val

end
-- ==== Proof.BodyIdeal.lean ====
import proofs.«166356_g49091476193430_cont_8to1_c_377_7_alg».proof.Proof.Gen.KernelIdeal.Frame
import proofs.«166356_g49091476193430_cont_8to1_c_377_7_alg».proof.Proof.Gen.KernelIdeal.Skeleton
import Idealize.ShloMosaic.Lib.Pipeline.Value

/-!
  The kernel body as one separation-logic triple per control case.

  The body of the pallas_call runs on whole staging buffers holding X0 (the feature matrix), X1 (a block of
  512 rows of the adjacency matrix), X2 (the weights), anything in the result's buffer, and S in the
  scratch. At the first grid point it stores the product X0 · X2 into the scratch and then the product of X1
  with that scratch into the result's buffer; at every later point it only stores the product of X1 with
  whatever the scratch holds. The three input buffers are left as found. Both statements hold at every float
  instance: the products are the printed payload terms, nothing is evaluated.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-shape rectangle, read back through the view, is the payload. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨(⟨Rect.unit off S.size inb, w⟩ : View.Piece Val S e), List.mem_singleton_self _,
    View.mem_set_unit_zero hz inb y⟩), View.canon_unit_zero hz]

/-- The condition of the body's one branch, as a function of the grid coordinates: "this is grid point 0". -/
abbrev atFirst (i : grid0.Coords) : Prop :=
  (Scalar.cmpi .ne (Scalar.extui (Scalar.cmpi .eq (BitVec.ofNat 32 (i 0).val) 0#32)) 0#32) = 1#1

/-- It holds at point 0 and at no other of the twenty points. -/
theorem atFirst_iff : ∀ t : Fin cfg0.N, atFirst (grid0.coords t) ↔ t.val = 0 :=
  (by decide +kernel : ∀ t : Fin grid0.N, atFirst (grid0.coords t) ↔ t.val = 0)

set_option maxHeartbeats 1000000 in
/-- At the first grid point: the scratch ends at X0 · X2 and the result's buffer at X1 · (X0 · X2). -/
theorem body_first (c : Dev nD) (i : grid0.Coords)
    (a1 : Memref sig .tc .vmem S10000x128 .f32) (h1 : a1.IsWhole) (a2 : Memref sig .tc .vmem S512x10000 .f32) (h2 : a2.IsWhole)
    (a3 : Memref sig .tc .vmem S128x128 .f32) (h3 : a3.IsWhole) (a4 : Memref sig .tc .vmem S512x128 .f32) (h4 : a4.IsWhole)
    (a5 : Memref sig .tc .vmem S10000x128 .f32) (h5 : a5.IsWhole) (hc : atFirst i)
    (X0 : Vec F S10000x128 .f32) (X1 : Vec F S512x10000 .f32) (X2 : Vec F S128x128 .f32) (X3 : Vec F S512x128 .f32)
    (S : Vec F S10000x128 .f32) (E : Set ℕ) (K : PUnit → sProp 𝕄) :
    iprop(owns (c : Thread nD τ) a1 fullShare X0 ∗ owns (c : Thread nD τ) a2 fullShare X1 ∗ owns (c : Thread nD τ) a3 fullShare X2
          ∗ owns (c : Thread nD τ) a4 fullShare X3 ∗ owns (c : Thread nD τ) a5 fullShare S
          ∗ (iprop(owns (c : Thread nD τ) a1 fullShare X0 ∗ owns (c : Thread nD τ) a2 fullShare X1 ∗ owns (c : Thread nD τ) a3 fullShare X2
              ∗ owns (c : Thread nD τ) a4 fullShare (k0_pay2 X1 (k0_pay1 X0 X2)) ∗ owns (c : Thread nD τ) a5 fullShare (k0_pay1 X0 X2)) -∗ K ⟨⟩))
      ⊢ wp frame (wpE (defs₀ (F := F)) Variants.none c none) E (cc0__gcn_body i a1 h1 a2 h2 a3 h3 a4 h4 a5 h5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2
  obtain rfl := h4.eq_unread hf3; obtain rfl := h5.eq_unread hf4
  sl_exec (disch := exact hc)
  sl_step
  have hz : (![0, 0] : Fin 2 → Nat) = fun _ => 0 := funext fun a => by fin_cases a <;> rfl
  sl_unfold_words
  simp only [View.readAt_eq_ld, h1.read_unread, h2.read_unread, h3.read_unread, View.ld_unit_zero (S := S512x10000) hz,
    View.ld_unit_zero (S := S10000x128) hz, View.ld_unit_zero (S := S128x128) hz,
    View.readCov_unit_zero (S := S10000x128) _ hz]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    · ipureintro
      exact read_writes_whole a4.view (h4.unread X3) hz inb_S512x128_S512x128_0_0 (k0_pay2 X1 (k0_pay1 X0 X2))
    iexact H3
  · iexists _; isplitr
    · ipureintro
      exact read_writes_whole a5.view (h5.unread S) hz inb_S10000x128_S10000x128_0_0 (k0_pay1 X0 X2)
    iexact H4

set_option maxHeartbeats 1000000 in
/-- At a later grid point: the scratch is left as found and the result's buffer ends at X1 · S. -/
theorem body_rest (c : Dev nD) (i : grid0.Coords)
    (a1 : Memref sig .tc .vmem S10000x128 .f32) (h1 : a1.IsWhole) (a2 : Memref sig .tc .vmem S512x10000 .f32) (h2 : a2.IsWhole)
    (a3 : Memref sig .tc .vmem S128x128 .f32) (h3 : a3.IsWhole) (a4 : Memref sig .tc .vmem S512x128 .f32) (h4 : a4.IsWhole)
    (a5 : Memref sig .tc .vmem S10000x128 .f32) (h5 : a5.IsWhole) (hc : ¬atFirst i)
    (X0 : Vec F S10000x128 .f32) (X1 : Vec F S512x10000 .f32) (X2 : Vec F S128x128 .f32) (X3 : Vec F S512x128 .f32)
    (S : Vec F S10000x128 .f32) (E : Set ℕ) (K : PUnit → sProp 𝕄) :
    iprop(owns (c : Thread nD τ) a1 fullShare X0 ∗ owns (c : Thread nD τ) a2 fullShare X1 ∗ owns (c : Thread nD τ) a3 fullShare X2
          ∗ owns (c : Thread nD τ) a4 fullShare X3 ∗ owns (c : Thread nD τ) a5 fullShare S
          ∗ (iprop(owns (c : Thread nD τ) a1 fullShare X0 ∗ owns (c : Thread nD τ) a2 fullShare X1 ∗ owns (c : Thread nD τ) a3 fullShare X2
              ∗ owns (c : Thread nD τ) a4 fullShare (k0_pay2 X1 S) ∗ owns (c : Thread nD τ) a5 fullShare S) -∗ K ⟨⟩))
      ⊢ wp frame (wpE (defs₀ (F := F)) Variants.none c none) E (cc0__gcn_body i a1 h1 a2 h2 a3 h3 a4 h4 a5 h5) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2
  obtain rfl := h4.eq_unread hf3; obtain rfl := h5.eq_unread hf4
  sl_exec (disch := exact hc)
  sl_step
  have hz : (![0, 0] : Fin 2 → Nat) = fun _ => 0 := funext fun a => by fin_cases a <;> rfl
  sl_unfold_words
  simp only [View.readAt_eq_ld, h1.read_unread, h2.read_unread, h3.read_unread, h5.read_unread, View.ld_unit_zero (S := S512x10000) hz,
    View.ld_unit_zero (S := S10000x128) hz, View.ld_unit_zero (S := S128x128) hz]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    · ipureintro
      exact read_writes_whole a4.view (h4.unread X3) hz inb_S512x128_S512x128_0_0 (k0_pay2 X1 S)
    iexact H3
  · iexists _; isplitr; · ipureintro; exact hf4
    iexact H4

end Cert.KernelIdeal.Body

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.AlgIdeal.lean ====
import proofs.«166356_g49091476193430_cont_8to1_c_377_7_alg».proof.Proof.Gen.KernelIdeal.Skeleton
import proofs.«166356_g49091476193430_cont_8to1_c_377_7_alg».proof.Proof.LibPlainDot
import Idealize.ShloMosaic.Lib.Pipeline.Value
import Idealize.ShloMosaic.Lib.ValueIdx

/-!
  The two payloads of the kernel body at the ideal values, entry by entry.

  The first payload is the product of the feature matrix with the weights into a zero accumulator (followed
  by a reshape to its own shape): its entry (k, q) is the sum over l of X (k, l) * W (l, q). The second is the
  product of a block of 512 adjacency rows with the scratch into a zero accumulator: its entry (p, q) is the
  sum over k of B (p, k) * S (k, q). In particular row p of the second product reads row p of the block and
  no other row.
-/

noncomputable section

namespace Cert.KernelIdeal.Alg

open Cert.KernelIdeal Cert.KernelIdeal.Gen
open Idealize.ShloMosaic Idealize.ShloMosaic.ValueIdx

/-- The feature-times-weights payload at entry (k, q). -/
theorem pay1_apply (X : Vec Ideal S10000x128 .f32) (W : Vec Ideal S128x128 .f32) (k : Fin 10000) (q : Fin 128) :
    k0_pay1 (F := Ideal) X W (ix2 k q) = ∑ l : Fin 128, X (ix2 k l) * W (ix2 l q) := by
  unfold k0_pay1
  rw [shapeCast_self]
  exact Cert.PlainDot.matmul_zero_apply dot_S10000x128_S128x128_S10000x128_1_0_0_1_n_n rfl none X W k q

/-- The block-times-scratch payload at entry (p, q). -/
theorem pay2_apply (B : Vec Ideal S512x10000 .f32) (S : Vec Ideal S10000x128 .f32) (p : Fin 512) (q : Fin 128) :
    k0_pay2 (F := Ideal) B S (ix2 p q) = ∑ k : Fin 10000, B (ix2 p k) * S (ix2 k q) := by
  unfold k0_pay2
  exact Cert.PlainDot.matmul_zero_apply dot_S512x10000_S10000x128_S512x128_1_0_0_1_n_n rfl none B S p q

end Cert.KernelIdeal.Alg

end
-- ==== Proof.CutIdeal.lean ====
import proofs.«166356_g49091476193430_cont_8to1_c_377_7_alg».proof.Proof.DefsIdeal
import proofs.«166356_g49091476193430_cont_8to1_c_377_7_alg».proof.Proof.AlgIdeal

/-!
  What the body's second product leaves on the rows inside the array.

  At grid point t the adjacency window's staging buffer holds rows 512 t .. 512 t + 511 of A on the rows that
  lie inside the array and anything (d1) on the rows past its end. Row p of the product of that buffer with
  the support matrix is the sum over k of (row p of the buffer at k) * support (k, q): it reads row p of the
  buffer only. So on the rows the write-back moves (the same rows, for the result's window is cut like the
  adjacency window) the product is block t of A · support, whatever d1 is.
-/

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The adjacency window's block at point t, read at an index inside the array with row coordinate p and column
    coordinate k: the array's entry at row 512 t + p (written r) and column k. -/
theorem iblkA_apply (c : Dev nD) (t : Fin cfg0.N) (p : Fin 512) (k : Fin 10000) (r : Fin 10000)
    (hr : r.val = win0_1.index t (0 : Fin 2) * 512 + p.val)
    (y : (win0_1.xblock (grid0.coords t)).Idx) (h0 : (y 0).val = p.val) (h1 : (y 1).val = k.val) :
    Gen.iblk m c 1 t y = Aarr m c (ix2 r k) := by
  obtain ⟨e0, e1, e2, e3, e4, e5, e6, e7⟩ := win_facts t
  show Aarr m c ((win0_1.blk t).view.emb y) = Aarr m c (ix2 r k)
  refine congrArg (Aarr m c) (funext fun a => Fin.ext ?_)
  match a with
  | ⟨0, _⟩ => show win0_1.index t (0 : Fin 2) * 512 + 1 * (y 0).val = r.val; omega
  | ⟨1, _⟩ => show win0_1.index t (1 : Fin 2) * 10000 + 1 * (y 1).val = k.val; omega

/-- The adjacency window's buffer just fetched, read at a row inside the array: the array's entry. -/
theorem fetchedA_apply (c : Dev nD) (t : Fin cfg0.N) (d1 : S512x10000.Idx → EReal) (p : Fin 512) (k : Fin 10000)
    (hp : p.val < win0_1.xsize (grid0.coords t) (0 : Fin 2)) (r : Fin 10000) (hr : r.val = win0_1.index t (0 : Fin 2) * 512 + p.val) :
    fetchedA m c t d1 (ix2 p k) = Aarr m c (ix2 r k) := by
  obtain ⟨e0, e1, e2, e3, e4, e5, e6, e7⟩ := win_facts t
  have hk : k.val < win0_1.xsize (grid0.coords t) (1 : Fin 2) := by rw [e1]; exact k.isLt
  have hm : win0_1.moved (grid0.coords t) (ix2 p k) = true :=
    (win0_1.moved_iff (grid0.coords t) (ix2 p k)).mpr fun a => by
      match a with
      | ⟨0, _⟩ => exact hp
      | ⟨1, _⟩ => exact hk
  unfold fetchedA Window.fill
  rw [dif_pos hm]
  exact iblkA_apply m c t p k r hr _ rfl rfl

/-- On the rows the write-back moves, the product of the fetched buffer with the support matrix is block t of
    A · support, whatever the fetch left past the array's end. -/
theorem out_cut (c : Dev nD) (t : Fin cfg0.N) (d1 : S512x10000.Idx → EReal) :
    (cfg0.win 3).cut (cfg0.grid.coords t) (k0_pay2 (F := Ideal) (fetchedA m c t d1) (support m c))
      = ((cfg0.win 3).blk t).view.read (Elt Ideal) (Gmat m c) := by
  obtain ⟨e0, e1, e2, e3, e4, e5, e6, e7⟩ := win_facts t
  funext x
  have hx0 : (x 0).val < win0_3.xsize (grid0.coords t) (0 : Fin 2) := (x 0).isLt
  have hx1 : (x 1).val < win0_3.xsize (grid0.coords t) (1 : Fin 2) := (x 1).isLt
  have hp : (x 0).val < 512 := lt_of_lt_of_le hx0 (win0_3.xsize_le (grid0.coords t) 0)
  have hq : (x 1).val < 128 := by rw [e2] at hx1; exact hx1
  have hr : win0_3.index t (0 : Fin 2) * 512 + (x 0).val < 10000 := by
    rw [e6]; rw [e7] at hx0; have := t.isLt; have hN : cfg0.N = 20 := N_0; split at hx0 <;> omega
  have hxi : win0_3.xinj (grid0.coords t) x = (ix2 (⟨(x 0).val, hp⟩ : Fin 512) (⟨(x 1).val, hq⟩ : Fin 128) : S512x128.Idx) := by
    funext a; match a with | ⟨0, _⟩ => rfl | ⟨1, _⟩ => rfl
  show k0_pay2 (F := Ideal) _ (support m c) (win0_3.xinj (grid0.coords t) x) = Gmat m c ((win0_3.blk t).view.emb x)
  rw [hxi, Alg.pay2_apply]
  have hemb : (win0_3.blk t).view.emb x
      = (ix2 (⟨win0_3.index t (0 : Fin 2) * 512 + (x 0).val, hr⟩ : Fin 10000) (⟨(x 1).val, hq⟩ : Fin 128) : S10000x128.Idx) := by
    funext a; apply Fin.ext
    match a with
    | ⟨0, _⟩ => show win0_3.index t (0 : Fin 2) * 512 + 1 * (x 0).val = win0_3.index t (0 : Fin 2) * 512 + (x 0).val; omega
    | ⟨1, _⟩ => show win0_3.index t (1 : Fin 2) * 128 + 1 * (x 1).val = (x 1).val; omega
  rw [hemb]
  show _ = ∑ k : Fin 10000, Aarr m c (ix2 (⟨win0_3.index t (0 : Fin 2) * 512 + (x 0).val, hr⟩ : Fin 10000) k) * support m c (ix2 k (⟨(x 1).val, hq⟩ : Fin 128))
  refine Finset.sum_congr rfl fun k _ => ?_
  rw [fetchedA_apply m c t d1 ⟨(x 0).val, hp⟩ k (by rw [e0]; exact hx0) ⟨win0_3.index t (0 : Fin 2) * 512 + (x 0).val, hr⟩ (by rw [e3])]

end Cert.KernelIdeal.Val

end
-- ==== Proof.ObligIdeal.lean ====
import proofs.«166356_g49091476193430_cont_8to1_c_377_7_alg».proof.Proof.DefsIdeal
import proofs.«166356_g49091476193430_cont_8to1_c_377_7_alg».proof.Proof.BodyIdeal
import proofs.«166356_g49091476193430_cont_8to1_c_377_7_alg».proof.Proof.CutIdeal

/-!
  The body obligation of the idealized kernel's pipeline, at the ideal values.

  At every grid point the body finds X and W whole in their buffers (fetched once, at the first point, and left
  in place), the adjacency block just fetched (anything past the array's end) and anything in the result's
  buffer. At the first point the scratch holds anything and the body fills it with X · W, the support matrix;
  at every later point it holds the support matrix and the body leaves it. Either way the result's buffer ends
  at the product of the fetched block with the support matrix, which on the rows inside the array is the
  point's block of A · (X · W).
-/

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The block indices of the two whole windows are zero at every point. -/
theorem whole_facts : ∀ t : Fin cfg0.N,
    win0_0.index t (0 : Fin 2) = 0 ∧ win0_0.index t (1 : Fin 2) = 0
    ∧ win0_2.index t (0 : Fin 2) = 0 ∧ win0_2.index t (1 : Fin 2) = 0 :=
  (by decide +kernel : ∀ t : Fin grid0.N, _)

/-- The feature window's block is the whole feature matrix. -/
theorem iblk0_eq (c : Dev nD) (t : Fin cfg0.N) : (Gen.iblk m c 0 t : Vec Ideal S10000x128 .f32) = Xarr m c := by
  obtain ⟨e0, e1, e2, e3⟩ := whole_facts t
  funext x
  show Xarr m c ((win0_0.blk t).view.emb x) = Xarr m c x
  congr 1
  funext a; apply Fin.ext
  match a with
  | ⟨0, _⟩ => show win0_0.index t (0 : Fin 2) * 10000 + 1 * (x 0).val = (x 0).val; omega
  | ⟨1, _⟩ => show win0_0.index t (1 : Fin 2) * 128 + 1 * (x 1).val = (x 1).val; omega

/-- The weight window's block is the whole weight matrix. -/
theorem iblk2_eq (c : Dev nD) (t : Fin cfg0.N) : (Gen.iblk m c 2 t : Vec Ideal S128x128 .f32) = Warr m c := by
  obtain ⟨e0, e1, e2, e3⟩ := whole_facts t
  funext x
  show Warr m c ((win0_2.blk t).view.emb x) = Warr m c x
  congr 1
  funext a; apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- What the body finds in the two whole windows' buffers: their blocks, at every point. -/
theorem before0_0 (c : Dev nD) (t : Fin cfg0.N) (d) : (dats m 0 c).before 0 t d = Gen.iblk m c 0 t :=
  Gen.before0_0_of m (dats m 0 c) (A_eq m c 0) (after0_0 m c) t d
theorem before0_2 (c : Dev nD) (t : Fin cfg0.N) (d) : (dats m 0 c).before 2 t d = Gen.iblk m c 2 t :=
  Gen.before0_2_of m (dats m 0 c) (A_eq m c 2) (after0_2 m c) t d

/-- What it finds in the adjacency window's buffer: the block just fetched, anything past the array's end. -/
theorem before0_1 (c : Dev nD) (t : Fin cfg0.N) (d) :
    (dats m 0 c).before 1 t d = fetchedA m c t d := by
  unfold Dat.before; rw [if_pos (Gen.fetch0_1 t)]; rfl

/-- The adjacency window's stated contents, filled out past the array's end with d, are the fetched buffer. -/
theorem fillA_eq (c : Dev nD) (t : Fin cfg0.N) (d : S512x10000.Idx → EReal) :
    (cfg0.win 1).fill (cfg0.grid.coords t) d ((cfg0.win 1).cut (cfg0.grid.coords t) (afterA m c t)) = fetchedA m c t d := by
  unfold afterA fetchedA
  rw [(cfg0.win 1).cut_fill]

/-- The invariant after a point (before any point but the first): the scratch at the support matrix. -/
theorem PhiS_succ (c : Dev nD) (n : ℕ) :
    PhiS m c (n + 1) = iprop(owns (c : Thread nD τ) (Memref.whole cc0_scratch0) fullShare (support m c) ∗ (∃ r, prngReg c r)) := rfl
theorem PhiS_pos (c : Dev nD) (n : ℕ) (hn : n ≠ 0) :
    PhiS m c n = iprop(owns (c : Thread nD τ) (Memref.whole cc0_scratch0) fullShare (support m c) ∗ (∃ r, prngReg c r)) := by
  cases n with
  | zero => exact absurd rfl hn
  | succ n => rfl
theorem PhiS_zero (c : Dev nD) (n : ℕ) (hn : n = 0) : PhiS m c n = Pipeline.ΦA spec0 c := by subst hn; rfl

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two cut windows stated on the rows inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t)))))

/-- The result window's buffer, holding the product of the fetched block with the support matrix, is the
    stated contents filled out past the array's end with itself. -/
theorem out_fill (c : Dev nD) (t : Fin cfg0.N) (d1 : S512x10000.Idx → EReal) :
    (cfg0.win 3).fill (cfg0.grid.coords t) (k0_pay2 (F := Ideal) (fetchedA m c t d1) (support m c))
        ((cfg0.win 3).cut (cfg0.grid.coords t) (afterO m c t))
      = k0_pay2 (F := Ideal) (fetchedA m c t d1) (support m c) := by
  apply (cfg0.win 3).fill_congr_cut
  rw [out_cut m c t d1]
  unfold afterO
  exact ((cfg0.win 3).cut_fill _ _ _).symm

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2, after0_3, iblk0_eq, iblk2_eq]
  rw [show (dats m 0 c).owesAt () t.succ = (dats m 0 c).owesAt () t.castSucc from rfl]
  rw [Phi_eq, Phi_eq, show (t.succ : Fin (cfg0.N + 1)).val = t.val + 1 from rfl, PhiS_succ,
    show (t.castSucc : Fin (cfg0.N + 1)).val = t.val from rfl]
  by_cases hz : t.val = 0
  · rw [PhiS_zero m c _ hz, PhiA_eq]
    iintro ⟨⟨⟨%S, HS⟩, Hg⟩, Ho, ⟨%d0, H0⟩, ⟨%d1, H1⟩, ⟨%d2, H2⟩, ⟨%d3, H3⟩⟩
    iapply (Body.body_first (F := Ideal) c (grid0.coords t) _ _ _ _ _ _ _ _ _ _ ((Body.atFirst_iff t).mpr hz)
      (Xarr m c) (fetchedA m c t d1) (Warr m c) _ S Set.univ _)
    isplitl [H0]; · iexact H0
    isplitl [H1]; · iexact H1
    isplitl [H2]; · iexact H2
    isplitl [H3]; · iexact H3
    isplitl [HS]; · iexact HS
    iintro ⟨H0, H1, H2, H3, HS⟩
    rw [show k0_pay1 (F := Ideal) (Xarr m c) (Warr m c) = support m c from rfl]
    isplitl [HS Hg]
    · isplitl [HS]; · iexact HS
      iexact Hg
    isplitl [Ho]; · iexact Ho
    isplitl [H0]; · iexact H0
    isplitl [H1]
    · iexists d1; rw [fillA_eq]; iexact H1
    isplitl [H2]; · iexact H2
    · iexists (k0_pay2 (F := Ideal) (fetchedA m c t d1) (support m c)); rw [out_fill]; iexact H3
  · rw [PhiS_pos m c _ hz]
    iintro ⟨⟨HS, Hg⟩, Ho, ⟨%d0, H0⟩, ⟨%d1, H1⟩, ⟨%d2, H2⟩, ⟨%d3, H3⟩⟩
    iapply (Body.body_rest (F := Ideal) c (grid0.coords t) _ _ _ _ _ _ _ _ _ _ (fun h => hz ((Body.atFirst_iff t).mp h))
      (Xarr m c) (fetchedA m c t d1) (Warr m c) _ (support m c) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]
    · iexists d1; rw [fillA_eq]; iexact H1
    isplitl [H2]; · iexact H2
    · iexists (k0_pay2 (F := Ideal) (fetchedA m c t d1) (support m c)); rw [out_fill]; iexact H3

/-- The library's body obligation, at every point: the windows opened one by one. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [Phi_eq]; exact Idealize.SL.BI.Entails.refl _

/-- After the last point the invariant gives the class invariant back: the scratch's contents are forgotten. -/
theorem hout (c : Dev nD) : (dats m 0 c).Φ (Fin.last cfg0.N) ⊢ Pipeline.ΦA spec0 c := by
  rw [Phi_eq, PhiS_pos m c _ (by rw [Fin.val_last]; have : cfg0.N = 20 := N_0; omega), PhiA_eq]
  iintro ⟨HS, Hg⟩
  isplitl [HS]
  · iexists _; iexact HS
  iexact Hg

end Cert.KernelIdeal.Val

end
-- ==== Proof.RunIdeal.lean ====
import proofs.«166356_g49091476193430_cont_8to1_c_377_7_alg».proof.Proof.ObligIdeal

/-!
  The run of the idealized kernel and what it leaves in the result array.

  With the proof data and the body obligation, the library's frame run says: every weakly fair execution
  terminates, the argument arrays end unchanged, and the result array ends at its entry contents overwritten,
  point by point, by what the body left on the rows inside the array. What each point writes back is its
  block of Gmat = A · (X · W), and the twenty blocks (nineteen of 512 rows and one of 272) cover all 10000
  rows; so the result array ends at Gmat.
-/

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The frame run: termination, no fault, every windowed array at what the proof data compute. -/
theorem run_main : θ_run defs (onTc (τ := τ) (main (F := Ideal))) (s₀ m ρ) (Pipeline.FramePost cfgs (dats m) 0 (Gen.V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := Gen.V m) (hmain := Gen.hmain m Variants.none) (hA := A_eq m) (hin := hin m) (hout := hout m)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (A_eq m) (run_main m ρ)

/-- What point t writes back is block t of Gmat. -/
theorem flushed3_eq (c : Dev nD) (t : Fin cfg0.N) :
    (dats m 0 c).flushed 3 t = ((cfg0.win 3).blk t).view.read (Elt Ideal) (Gmat m c) := by
  show (cfg0.win 3).cut (grid0.coords t) ((dats m 0 c).after 3 t) = _
  rw [after0_3]
  unfold afterO
  exact (cfg0.win 3).cut_fill _ _ _

/-- An index of the result array is in point t's block iff its row is among the block's rows inside the array
    and its column among the block's columns. -/
theorem mem_blk3 (t : Fin cfg0.N) (i : S10000x128.Idx) :
    i ∈ ((cfg0.win 3).blk t).view.set ↔ ∀ a : Fin 2, win0_3.index t a * S512x128.size a ≤ (i a).val
      ∧ (i a).val < win0_3.index t a * S512x128.size a + win0_3.xsize (grid0.coords t) a := by
  show i ∈ ((View.whole main_v0).slice (win0_3.rect t)).set ↔ _
  rw [View.set_slice_whole, Rect.mem_set_unit]
  exact Iff.rfl

/-- Every index of the result array is in the block of the point its row falls in. -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 20 := N_0
  refine ⟨⟨(i 0).val / 512, by omega⟩, flush0_3 _, ?_⟩
  obtain ⟨e0, e1, e2, e3, e4, e5, e6, e7⟩ := win_facts ⟨(i 0).val / 512, by omega⟩
  rw [mem_blk3]
  intro a
  match a with
  | ⟨0, _⟩ =>
    show win0_3.index _ (0 : Fin 2) * 512 ≤ (i 0).val ∧ (i 0).val < win0_3.index _ (0 : Fin 2) * 512 + win0_3.xsize _ (0 : Fin 2)
    rw [e6, e7]
    show (i 0).val / 512 * 512 ≤ (i 0).val ∧ (i 0).val < (i 0).val / 512 * 512 + (if (i 0).val / 512 = 19 then 272 else 512)
    split <;> omega
  | ⟨1, _⟩ =>
    show win0_3.index _ (1 : Fin 2) * 128 ≤ (i 1).val ∧ (i 1).val < win0_3.index _ (1 : Fin 2) * 128 + win0_3.xsize _ (1 : Fin 2)
    rw [e5, e2]; omega

/-- The result array after the run. -/
theorem final3 (c : Dev nD) : (dats m 0 c).arrAt 3 cfg0.N = Gmat m c :=
  (dats m 0 c).arrAt_eq_of_cover 3 (Gmat m c) (fun t _ => flushed3_eq m c t) cover3

/-- The run with the result array named: it ends at Gmat, the arguments as they were. -/
theorem run : θ_run defs (onTc (τ := τ) (main (F := Ideal))) ⟨m, fun _ => 0, ρ⟩ (fun r => ∀ c : Dev nD,
      r.2.mem ((c.tc : Thread nD τ).loc main_v0) = Gmat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 3).trans (final3 m c),
      ((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c))),
      ((h c).1 2).trans (((dats m 0 c).arrAt_in 2 rfl _).trans ((A_eq m c 2).trans (Gen.V_main_arg2 m c)))⟩)
    (run_main m ρ)

end Cert.KernelIdeal.Val

end
-- ==== Proof.RefIdeal.lean ====
import proofs.«166356_g49091476193430_cont_8to1_c_377_7_alg».proof.Proof.DefsIdeal
import proofs.«166356_g49091476193430_cont_8to1_c_377_7_alg».proof.Proof.AlgIdeal
import proofs.«166356_g49091476193430_cont_8to1_c_377_7_alg».proof.Proof.Gen.ReferenceIdeal

/-!
  The reference computes the same function.

  The reference is two host matrix products: support = X · W, then A · support. At the ideal values each is the
  plain sum over the contracted coordinate, and so is each of the kernel's products into its zero accumulator:
  entry (p, q) of both results is the sum over k of A (p, k) times the sum over l of X (k, l) * W (l, q), the
  same grouping on both sides. No law of the extended reals beyond reading the sums is used.
-/

noncomputable section

namespace Cert.KernelIdeal.RefSide

open Idealize.ShloMosaic Idealize.ShloMosaic.ValueIdx

/-- The reference's first product is the kernel's support payload. -/
theorem ref_support (X : Vec Ideal Cert.KernelIdeal.S10000x128 .f32) (W : Vec Ideal Cert.KernelIdeal.S128x128 .f32) :
    Host.dotGeneral (F := Ideal) (φ₁ := .f32) (φ₂ := .f32) Cert.ReferenceIdeal.dot_S10000x128_S128x128_S10000x128_1_0_0_1_n_n none X W
      = Cert.KernelIdeal.Gen.k0_pay1 (F := Ideal) X W := by
  funext i
  obtain ⟨p, q, rfl⟩ : ∃ (p : Fin 10000) (q : Fin 128), i = ix2 p q := ⟨i 0, i 1, eq_ix2 i⟩
  rw [Cert.KernelIdeal.Alg.pay1_apply]
  exact Cert.PlainDot.dotGeneral_apply Cert.ReferenceIdeal.dot_S10000x128_S128x128_S10000x128_1_0_0_1_n_n rfl none X W p q

/-- The reference's result is Gmat. -/
theorem ref_eq (m : (ℓ : Loc Cert.KernelIdeal.nD Cert.KernelIdeal.τ Cert.KernelIdeal.sig) → Buf (Elt Ideal) ℓ) (c : Dev Cert.KernelIdeal.nD) :
    Host.dotGeneral (F := Ideal) (φ₁ := .f32) (φ₂ := .f32) Cert.ReferenceIdeal.dot_S10000x10000_S10000x128_S10000x128_1_0_0_1_n_n none (Cert.KernelIdeal.Val.Aarr m c)
        (Host.dotGeneral (F := Ideal) (φ₁ := .f32) (φ₂ := .f32) Cert.ReferenceIdeal.dot_S10000x128_S128x128_S10000x128_1_0_0_1_n_n none
          (Cert.KernelIdeal.Val.Xarr m c) (Cert.KernelIdeal.Val.Warr m c))
      = Cert.KernelIdeal.Val.Gmat m c := by
  rw [ref_support]
  funext i
  obtain ⟨p, q, rfl⟩ : ∃ (p : Fin 10000) (q : Fin 128), i = ix2 p q := ⟨i 0, i 1, eq_ix2 i⟩
  exact Cert.PlainDot.dotGeneral_apply Cert.ReferenceIdeal.dot_S10000x10000_S10000x128_S10000x128_1_0_0_1_n_n rfl none
    (Cert.KernelIdeal.Val.Aarr m c) (Cert.KernelIdeal.Gen.k0_pay1 (F := Ideal) (Cert.KernelIdeal.Val.Xarr m c) (Cert.KernelIdeal.Val.Warr m c)) p q

end Cert.KernelIdeal.RefSide

end
-- ==== Proof.lean ====
/-
  The certificate of a graph-convolution layer: out = A · (X · W), with X the [10000, 128] feature matrix, A the
  dense [10000, 10000] adjacency matrix and W the [128, 128] weights.

  The kernel is one pipelined call over twenty blocks of 512 rows of A (the last block overhangs the array by
  240 rows and its transfers are cut at the array's end). At the first grid point the body computes the support
  matrix X · W once into a scratch buffer that stays resident; at every point it multiplies the current block of
  rows of A with the scratch and stores the product into the result's block. The reference computes
  support = X · W and then A · support on the host.

  At the ideal values both matrix products, the device's into a zero accumulator and the host's, are plain sums
  over the contracted coordinate, so entry (p, q) of both results is the sum over k of A (p, k) times the sum
  over l of X (k, l) * W (l, q): the same sums in the same grouping, and nothing of the precondition is used.
  The rows of the last block's buffer past the array's end hold nothing that can be named, and row p of a
  product reads row p of its left operand only, so they reach no row that is written back.

  The frames: the word-level kernel's with relational proof data that say nothing of the buffers' contents
  (Proof/FrameBits.lean over Proof/BodyBits.lean); the idealized kernel's from the same run that names its
  result (Proof/RunIdeal.lean over Proof/ObligIdeal.lean, Proof/CutIdeal.lean, Proof/DefsIdeal.lean,
  Proof/BodyIdeal.lean, Proof/AlgIdeal.lean); the reference's from its generated run. The idealization rewrote
  no operation, so the preservation claim is the trivial one.
-/
import proofs.«166356_g49091476193430_cont_8to1_c_377_7_alg».proof.Defs
import proofs.«166356_g49091476193430_cont_8to1_c_377_7_alg».proof.Proof.Gen.Kernel
import proofs.«166356_g49091476193430_cont_8to1_c_377_7_alg».proof.Proof.Gen.Kernel.Skeleton
import proofs.«166356_g49091476193430_cont_8to1_c_377_7_alg».proof.Proof.Gen.Kernel.Launch
import proofs.«166356_g49091476193430_cont_8to1_c_377_7_alg».proof.Proof.Gen.Kernel.Points
import proofs.«166356_g49091476193430_cont_8to1_c_377_7_alg».proof.Proof.Gen.Kernel.Frame
import proofs.«166356_g49091476193430_cont_8to1_c_377_7_alg».proof.Proof.Gen.KernelIdeal
import proofs.«166356_g49091476193430_cont_8to1_c_377_7_alg».proof.Proof.Gen.KernelIdeal.Skeleton
import proofs.«166356_g49091476193430_cont_8to1_c_377_7_alg».proof.Proof.Gen.KernelIdeal.Launch
import proofs.«166356_g49091476193430_cont_8to1_c_377_7_alg».proof.Proof.Gen.KernelIdeal.Points
import proofs.«166356_g49091476193430_cont_8to1_c_377_7_alg».proof.Proof.Gen.KernelIdeal.Frame
import proofs.«166356_g49091476193430_cont_8to1_c_377_7_alg».proof.Proof.Gen.ReferenceIdeal
import proofs.«166356_g49091476193430_cont_8to1_c_377_7_alg».proof.Proof.Gen.Pre_finite_inputs
import proofs.«166356_g49091476193430_cont_8to1_c_377_7_alg».proof.Proof.Gen.ReferenceIdeal.Run
import proofs.«166356_g49091476193430_cont_8to1_c_377_7_alg».proof.Proof.Gen.ReferenceIdeal.Read
import proofs.«166356_g49091476193430_cont_8to1_c_377_7_alg».proof.Proof.FrameBits
import proofs.«166356_g49091476193430_cont_8to1_c_377_7_alg».proof.Proof.RunIdeal
import proofs.«166356_g49091476193430_cont_8to1_c_377_7_alg».proof.Proof.RefIdeal
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel := fun m ρ _ => Cert.Kernel.FrameBits.frame (F := Bits) m ρ

/-- So does the idealized kernel. -/
theorem frame_pi : Cert.frame_KernelIdeal := fun m ρ _ => Cert.KernelIdeal.Val.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at A · (X · W). -/
theorem algebraic : Cert.algebraic_KernelIdeal_ReferenceIdeal := by
  intro m ρ m' ρ' _ hagree
  refine ⟨fun c => Cert.KernelIdeal.Val.Gmat m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.KernelIdeal.RefSide.ref_eq m c

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
